-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x768 : Shape := ⟨2, ![20000, 768]⟩
abbrev S2x262144 : Shape := ⟨2, ![2, 262144]⟩
abbrev S64 : Shape := ⟨1, ![64]⟩
abbrev S768x768 : Shape := ⟨2, ![768, 768]⟩
abbrev S768 : Shape := ⟨1, ![768]⟩
abbrev S_ : Shape := ⟨0, ![]⟩

class Facts : Prop where
  bcast_S_S20000x768 : S_.BroadcastsInDim S20000x768 (![] : Fin 0 → Fin S20000x768.rank)
  reducesTo_S20000x768_S_d0_1 : S20000x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S20000x768 .f32) (main_arg1 : IVec S2x262144 32) (main_arg2 : IVec S64 32) (main_arg3 : FVec F S768x768 .f32) (main_arg4 : FVec F S768 .f32) (main_arg5 : FVec F S768x768 .f32) (main_arg6 : FVec F S768 .f32) : IVec S_ 1 :=
  let main_v0 : FVec F S20000x768 .f32 := Host.absf main_arg0
  let main_cst : FVec F S_ .f32 := constant S_ .f32 0x7F800000#32
  let main_v1 : FVec F S20000x768 .f32 := broadcastInDim S20000x768 ![] bcast_S_S20000x768 main_cst
  let main_v2 : IVec S20000x768 1 := cmpf .olt main_v0 main_v1
  let main_c : IVec S_ 1 := constantI S_ 1 1#1
  let main_v3 : IVec S_ 1 := (fun x v => Host.reduce IntOp.andi x v reducesTo_S20000x768_S_d0_1 h_S_) main_v2 main_c
  let main_v4 : FVec F S768x768 .f32 := Host.absf main_arg3
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg5
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg6 main_v13 main_v16
-- ==== Kernel.lean ====
abbrev S20000x768 : Shape := ⟨2, ![20000, 768]⟩
abbrev S2x262144 : Shape := ⟨2, ![2, 262144]⟩
abbrev S64 : Shape := ⟨1, ![64]⟩
abbrev S768x768 : Shape := ⟨2, ![768, 768]⟩
abbrev S768 : Shape := ⟨1, ![768]⟩
abbrev S20000 : Shape := ⟨1, ![20000]⟩
abbrev S1x262144 : Shape := ⟨2, ![1, 262144]⟩
abbrev S262144 : Shape := ⟨1, ![262144]⟩
abbrev S282144 : Shape := ⟨1, ![282144]⟩
abbrev S_ : Shape := ⟨0, ![]⟩
abbrev S282144x1 : Shape := ⟨2, ![282144, 1]⟩
abbrev S1000x768 : Shape := ⟨2, ![1000, 768]⟩
abbrev S282144x768 : Shape := ⟨2, ![282144, 768]⟩
abbrev S1x768 : Shape := ⟨2, ![1, 768]⟩
abbrev S64x1 : Shape := ⟨2, ![64, 1]⟩
abbrev S64x768 : Shape := ⟨2, ![64, 768]⟩

abbrev nBuf : Space → Nat
  | .hbm => 142
  | .vmem => 10
  | .smem => 0
  | _ => 0

abbrev hbmTy0_0 (i : Nat) : BufTy := match i % 128 with
  | 0 => ⟨S20000x768, .f32⟩
  | 1 => ⟨S2x262144, .i32⟩
  | 2 => ⟨S64, .i32⟩
  | 3 => ⟨S768x768, .f32⟩
  | 4 => ⟨S768, .f32⟩
  | 5 => ⟨S768x768, .f32⟩
  | 6 => ⟨S768, .f32⟩
  | 7 => ⟨S20000, .i32⟩
  | 8 => ⟨S1x262144, .i32⟩
  | 9 => ⟨S262144, .i32⟩
  | 10 => ⟨S282144, .i32⟩
  | 11 => ⟨S1x262144, .i32⟩
  | 12 => ⟨S262144, .i32⟩
  | 13 => ⟨S282144, .i32⟩
  | 14 => ⟨S_, .f32⟩
  | 15 => ⟨S282144, .f32⟩
  | 16 => ⟨S_, .f32⟩
  | 17 => ⟨S20000, .f32⟩
  | 18 => ⟨S282144x1, .i32⟩
  | 19 => ⟨S20000, .f32⟩
  | 20 => ⟨S_, .f32⟩
  | 21 => ⟨S20000, .f32⟩
  | 22 => ⟨S20000, .i1⟩
  | 23 => ⟨S_, .f32⟩
  | 24 => ⟨S20000, .f32⟩
  | 25 => ⟨S20000, .f32⟩
  | 26 => ⟨S20000, .f32⟩
  | 27 => ⟨S_, .f32⟩
  | 28 => ⟨S_, .f32⟩
  | 29 => ⟨S20000, .f32⟩
  | 30 => ⟨S20000, .f32⟩
  | 31 => ⟨S_, .i32⟩
  | 32 => ⟨S282144, .i32⟩
  | 33 => ⟨S282144, .i1⟩
  | 34 => ⟨S_, .i32⟩
  | 35 => ⟨S282144, .i32⟩
  | 36 => ⟨S282144, .i32⟩
  | 37 => ⟨S282144, .i32⟩
  | 38 => ⟨S282144x1, .i32⟩
  | 39 => ⟨S282144, .f32⟩
  | 40 => ⟨S_, .i32⟩
  | 41 => ⟨S282144, .i32⟩
  | 42 => ⟨S282144, .i1⟩
  | 43 => ⟨S_, .i32⟩
  | 44 => ⟨S282144, .i32⟩
  | 45 => ⟨S282144, .i32⟩
  | 46 => ⟨S282144, .i32⟩
  | 47 => ⟨S282144x1, .i32⟩
  | 48 => ⟨S282144, .f32⟩
  | 49 => ⟨S282144, .f32⟩
  | 50 => ⟨S20000x768, .f32⟩
  | 51 => ⟨S_, .i32⟩
  | 52 => ⟨S282144, .i32⟩
  | 53 => ⟨S282144, .i1⟩
  | 54 => ⟨S_, .i32⟩
  | 55 => ⟨S282144, .i32⟩
  | 56 => ⟨S282144, .i32⟩
  | 57 => ⟨S282144, .i32⟩
  | 58 => ⟨S282144x1, .i32⟩
  | 59 => ⟨S282144x768, .f32⟩
  | 60 => ⟨S282144x1, .f32⟩
  | 61 => ⟨S282144x768, .f32⟩
  | 62 => ⟨S282144x768, .f32⟩
  | 63 => ⟨S_, .f32⟩
  | 64 => ⟨S20000x768, .f32⟩
  | 65 => ⟨S282144x1, .i32⟩
  | 66 => ⟨S20000x768, .f32⟩
  | 67 => ⟨S1x768, .f32⟩
  | 68 => ⟨S20000x768, .f32⟩
  | 69 => ⟨S20000x768, .f32⟩
  | 70 => ⟨S20000x768, .f32⟩
  | 71 => ⟨S_, .f32⟩
  | 72 => ⟨S282144, .f32⟩
  | 73 => ⟨S_, .f32⟩
  | 74 => ⟨S20000, .f32⟩
  | 75 => ⟨S282144x1, .i32⟩
  | 76 => ⟨S20000, .f32⟩
  | 77 => ⟨S_, .f32⟩
  | 78 => ⟨S20000, .f32⟩
  | 79 => ⟨S20000, .i1⟩
  | 80 => ⟨S_, .f32⟩
  | 81 => ⟨S20000, .f32⟩
  | 82 => ⟨S20000, .f32⟩
  | 83 => ⟨S20000, .f32⟩
  | 84 => ⟨S_, .f32⟩
  | 85 => ⟨S_, .f32⟩
  | 86 => ⟨S20000, .f32⟩
  | 87 => ⟨S20000, .f32⟩
  | 88 => ⟨S_, .i32⟩
  | 89 => ⟨S282144, .i32⟩
  | 90 => ⟨S282144, .i1⟩
  | 91 => ⟨S_, .i32⟩
  | 92 => ⟨S282144, .i32⟩
  | 93 => ⟨S282144, .i32⟩
  | 94 => ⟨S282144, .i32⟩
  | 95 => ⟨S282144x1, .i32⟩
  | 96 => ⟨S282144, .f32⟩
  | 97 => ⟨S_, .i32⟩
  | 98 => ⟨S282144, .i32⟩
  | 99 => ⟨S282144, .i1⟩
  | 100 => ⟨S_, .i32⟩
  | 101 => ⟨S282144, .i32⟩
  | 102 => ⟨S282144, .i32⟩
  | 103 => ⟨S282144, .i32⟩
  | 104 => ⟨S282144x1, .i32⟩
  | 105 => ⟨S282144, .f32⟩
  | 106 => ⟨S282144, .f32⟩
  | 107 => ⟨S20000x768, .f32⟩
  | 108 => ⟨S_, .i32⟩
  | 109 => ⟨S282144, .i32⟩
  | 110 => ⟨S282144, .i1⟩
  | 111 => ⟨S_, .i32⟩
  | 112 => ⟨S282144, .i32⟩
  | 113 => ⟨S282144, .i32⟩
  | 114 => ⟨S282144, .i32⟩
  | 115 => ⟨S282144x1, .i32⟩
  | 116 => ⟨S282144x768, .f32⟩
  | 117 => ⟨S282144x1, .f32⟩
  | 118 => ⟨S282144x768, .f32⟩
  | 119 => ⟨S282144x768, .f32⟩
  | 120 => ⟨S_, .f32⟩
  | 121 => ⟨S20000x768, .f32⟩
  | 122 => ⟨S282144x1, .i32⟩
  | 123 => ⟨S20000x768, .f32⟩
  | 124 => ⟨S1x768, .f32⟩
  | 125 => ⟨S20000x768, .f32⟩
  | 126 => ⟨S20000x768, .f32⟩
  | 127 => ⟨S20000x768, .f32⟩
  | _ => ⟨S20000x768, .f32⟩

abbrev hbmTy0_1 (i : Nat) : BufTy := match i % 128 with
  | 0 => ⟨S_, .i32⟩
  | 1 => ⟨S64, .i32⟩
  | 2 => ⟨S64, .i1⟩
  | 3 => ⟨S_, .i32⟩
  | 4 => ⟨S64, .i32⟩
  | 5 => ⟨S64, .i32⟩
  | 6 => ⟨S64, .i32⟩
  | 7 => ⟨S64x1, .i32⟩
  | 8 => ⟨S64x768, .f32⟩
  | 9 => ⟨S_, .f32⟩
  | 10 => ⟨S768, .f32⟩
  | 11 => ⟨S_, .f32⟩
  | 12 => ⟨S768, .f32⟩
  | 13 => ⟨S768, .f32⟩
  | _ => ⟨S20000x768, .f32⟩

abbrev hbmTy (i : Nat) : BufTy := match i / 128 with
  | 0 => hbmTy0_0 i
  | 1 => hbmTy0_1 i
  | _ => ⟨S20000x768, .f32⟩

abbrev bufTy : (tb : Table) → Fin (tcTables nBuf tb) → BufTy
  | .hbm, ⟨i, _⟩ => hbmTy i
  | .local _ .vmem, ⟨0, _⟩ => ⟨S1000x768, .f32⟩
  | .local _ .vmem, ⟨1, _⟩ => ⟨S1000x768, .f32⟩
  | .local _ .vmem, ⟨2, _⟩ => ⟨S768x768, .f32⟩
  | .local _ .vmem, ⟨3, _⟩ => ⟨S1000x768, .f32⟩
  | .local _ .vmem, ⟨4, _⟩ => ⟨S1000x768, .f32⟩
  | .local _ .vmem, ⟨5, _⟩ => ⟨S1000x768, .f32⟩
  | .local _ .vmem, ⟨6, _⟩ => ⟨S1000x768, .f32⟩
  | .local _ .vmem, ⟨7, _⟩ => ⟨S768x768, .f32⟩
  | .local _ .vmem, ⟨8, _⟩ => ⟨S1000x768, .f32⟩
  | .local _ .vmem, ⟨9, _⟩ => ⟨S1000x768, .f32⟩
  | _, _ => ⟨S20000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_call1_v0 : Ref sig .tc := ⟨.hbm, 85, rfl⟩
abbrev main_call1_v1 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_17 : Ref sig .tc := ⟨.hbm, 97, rfl⟩
abbrev main_v67 : Ref sig .tc := ⟨.hbm, 98, rfl⟩
abbrev main_v68 : Ref sig .tc := ⟨.hbm, 99, rfl⟩
abbrev main_c_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_19 : Ref sig .tc := ⟨.hbm, 108, rfl⟩
abbrev main_v76 : Ref sig .tc := ⟨.hbm, 109, rfl⟩
abbrev main_v77 : Ref sig .tc := ⟨.hbm, 110, rfl⟩
abbrev main_c_20 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_21 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_22 : Ref sig .tc := ⟨.hbm, 128, rfl⟩
abbrev main_v93 : Ref sig .tc := ⟨.hbm, 129, rfl⟩
abbrev main_v94 : Ref sig .tc := ⟨.hbm, 130, rfl⟩
abbrev main_c_23 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_24 : Ref sig .tc := ⟨.hbm, 137, rfl⟩
abbrev main_v100 : Ref sig .tc := ⟨.hbm, 138, rfl⟩
abbrev main_cst_25 : Ref sig .tc := ⟨.hbm, 139, rfl⟩
abbrev main_v101 : Ref sig .tc := ⟨.hbm, 140, rfl⟩
abbrev main_v102 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x262144_S1x262144_0_0 : S2x262144.Slices ![0, 0] S1x262144
  shapeCasts_S1x262144_S262144 : S1x262144.ShapeCasts S262144
  concatenates_S262144_S20000_S282144_d0 : Shape.Concatenates [S262144, S20000] S282144 0
  slices_S2x262144_S1x262144_1_0 : S2x262144.Slices ![1, 0] S1x262144
  bcast_S_S282144 : S_.BroadcastsInDim S282144 (![] : Fin 0 → Fin S282144.rank)
  bcast_S_S20000 : S_.BroadcastsInDim S20000 (![] : Fin 0 → Fin S20000.rank)
  bcast_S282144_S282144x1_0 : S282144.BroadcastsInDim S282144x1 (![0] : Fin 1 → Fin S282144x1.rank)
  inb_S1000x768_S1000x768_0_0 : ∀ a, (![0, 0] : Fin 2 → Nat) a + S1000x768.size a ≤ S1000x768.size a
  h_S1000x768 : 0 < S1000x768.numel
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  bcast_S282144x1_S282144x768_0_1 : S282144x1.BroadcastsInDim S282144x768 (![0, 1] : Fin 2 → Fin S282144x768.rank)
  bcast_S_S20000x768 : S_.BroadcastsInDim S20000x768 (![] : Fin 0 → Fin S20000x768.rank)
  bcast_S768_S1x768_1 : S768.BroadcastsInDim S1x768 (![1] : Fin 1 → Fin S1x768.rank)
  bcast_S1x768_S20000x768_0_1 : S1x768.BroadcastsInDim S20000x768 (![0, 1] : Fin 2 → Fin S20000x768.rank)
  shapeCasts_S1000x768_S1000x768 : S1000x768.ShapeCasts S1000x768
  bcast_S_S64 : S_.BroadcastsInDim S64 (![] : Fin 0 → Fin S64.rank)
  bcast_S64_S64x1_0 : S64.BroadcastsInDim S64x1 (![0] : Fin 1 → Fin S64x1.rank)
  reducesTo_S64x768_S768_d0 : S64x768.ReducesTo [0] S768
  h_S_ : 0 < S_.numel
  bcast_S_S768 : S_.BroadcastsInDim S768 (![] : Fin 0 → Fin S768.rank)
  scatter_S20000_S282144x1_S282144_n_0_0_1_wf : ScatterDims.WF S20000 S282144x1 S282144 [] [0] [0] 1
  gather_S20000_S282144x1_S282144_n_0_n_n_0_1_1_wf : GatherDims.WF S20000 S282144x1 S282144 [] [0] [] [0] [] 1 ![1]
  dot_S1000x768_S768x768_S1000x768_1_0_0_1_n_n_wf : DotDims.WF S1000x768 S768x768 S1000x768 [1] [0] [0] [1] [] []
  gather_S20000x768_S282144x1_S282144x768_1_0_n_n_0_1_1768_wf : GatherDims.WF S20000x768 S282144x1 S282144x768 [1] [0] [] [0] [] 1 ![1, 768]
  scatter_S20000x768_S282144x1_S282144x768_1_0_0_1_wf : ScatterDims.WF S20000x768 S282144x1 S282144x768 [1] [0] [0] 1
  gather_S20000x768_S64x1_S64x768_1_0_n_n_0_1_1768_wf : GatherDims.WF S20000x768 S64x1 S64x768 [1] [0] [] [0] [] 1 ![1, 768]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S20000x768.size a
  hwx0_0 : ∀ i : grid0.Coords, EltTy.bits .f32 = 32 ∨ (Rect.block (s := S20000x768) S1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x768.size a ≤ S20000x768.size a
  hwx0_2 : ∀ i : grid0.Coords, EltTy.bits .f32 = 32 ∨ (Rect.block (s := S20000x768) S1000x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S20000x768.size a
  hwx1_0 : ∀ i : grid1.Coords, EltTy.bits .f32 = 32 ∨ (Rect.block (s := S20000x768) S1000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .f32 = 32 ∨ (Rect.block (s := S768x768) S768x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x768.size a ≤ S20000x768.size a
  hwx1_2 : ∀ i : grid1.Coords, EltTy.bits .f32 = 32 ∨ (Rect.block (s := S20000x768) S1000x768.size (cc1_transform_2 i) (hinb1_2 i)).WholeWords (EltTy.packing .f32)

variable [Facts₀]

def scatter_S20000_S282144x1_S282144_n_0_0_1 : ScatterDims S20000 S282144x1 S282144 where
  updateWindowDims := []
  insertedWindowDims := [0]
  scatterDimsToOperandDims := [0]
  indexVectorDim := 1
  wf := scatter_S20000_S282144x1_S282144_n_0_0_1_wf
def gather_S20000_S282144x1_S282144_n_0_n_n_0_1_1 : GatherDims S20000 S282144x1 S282144 where
  offsetDims := []
  collapsedSliceDims := [0]
  operandBatchingDims := []
  startIndicesBatchingDims := []
  startIndexMap := [0]
  indexVectorDim := 1
  sliceSizes := ![1]
  wf := gather_S20000_S282144x1_S282144_n_0_n_n_0_1_1_wf
def dot_S1000x768_S768x768_S1000x768_1_0_0_1_n_n : DotDims S1000x768 S768x768 S1000x768 where
  lhsContracting := [1]
  rhsContracting := [0]
  lhsNonContracting := [0]
  rhsNonContracting := [1]
  lhsBatch := []
  rhsBatch := []
  wf := dot_S1000x768_S768x768_S1000x768_1_0_0_1_n_n_wf
def gather_S20000x768_S282144x1_S282144x768_1_0_n_n_0_1_1768 : GatherDims S20000x768 S282144x1 S282144x768 where
  offsetDims := [1]
  collapsedSliceDims := [0]
  operandBatchingDims := []
  startIndicesBatchingDims := []
  startIndexMap := [0]
  indexVectorDim := 1
  sliceSizes := ![1, 768]
  wf := gather_S20000x768_S282144x1_S282144x768_1_0_n_n_0_1_1768_wf
def scatter_S20000x768_S282144x1_S282144x768_1_0_0_1 : ScatterDims S20000x768 S282144x1 S282144x768 where
  updateWindowDims := [1]
  insertedWindowDims := [0]
  scatterDimsToOperandDims := [0]
  indexVectorDim := 1
  wf := scatter_S20000x768_S282144x1_S282144x768_1_0_0_1_wf
def gather_S20000x768_S64x1_S64x768_1_0_n_n_0_1_1768 : GatherDims S20000x768 S64x1 S64x768 where
  offsetDims := [1]
  collapsedSliceDims := [0]
  operandBatchingDims := []
  startIndicesBatchingDims := []
  startIndexMap := [0]
  indexVectorDim := 1
  sliceSizes := ![1, 768]
  wf := gather_S20000x768_S64x1_S64x768_1_0_n_n_0_1_1768_wf

abbrev win0_0 : Pipeline.Window sig grid0 :=
  Pipeline.Window.ofSpec (Memref.whole main_arg0) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1000x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v75) S1000x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S20000x768 : Shape := ⟨2, ![20000, 768]⟩
abbrev S2x262144 : Shape := ⟨2, ![2, 262144]⟩
abbrev S64 : Shape := ⟨1, ![64]⟩
abbrev S768x768 : Shape := ⟨2, ![768, 768]⟩
abbrev S768 : Shape := ⟨1, ![768]⟩
abbrev S20000 : Shape := ⟨1, ![20000]⟩
abbrev S1x262144 : Shape := ⟨2, ![1, 262144]⟩
abbrev S262144 : Shape := ⟨1, ![262144]⟩
abbrev S282144 : Shape := ⟨1, ![282144]⟩
abbrev S_ : Shape := ⟨0, ![]⟩
abbrev S282144x1 : Shape := ⟨2, ![282144, 1]⟩
abbrev S282144x768 : Shape := ⟨2, ![282144, 768]⟩
abbrev S1x768 : Shape := ⟨2, ![1, 768]⟩
abbrev S64x1 : Shape := ⟨2, ![64, 1]⟩
abbrev S64x768 : Shape := ⟨2, ![64, 768]⟩

abbrev nBuf : Space → Nat
  | .hbm => 142
  | .vmem => 0
  | .smem => 0
  | _ => 0

abbrev hbmTy0_0 (i : Nat) : BufTy := match i % 128 with
  | 0 => ⟨S20000x768, .f32⟩
  | 1 => ⟨S2x262144, .i32⟩
  | 2 => ⟨S64, .i32⟩
  | 3 => ⟨S768x768, .f32⟩
  | 4 => ⟨S768, .f32⟩
  | 5 => ⟨S768x768, .f32⟩
  | 6 => ⟨S768, .f32⟩
  | 7 => ⟨S20000, .i32⟩
  | 8 => ⟨S1x262144, .i32⟩
  | 9 => ⟨S262144, .i32⟩
  | 10 => ⟨S282144, .i32⟩
  | 11 => ⟨S1x262144, .i32⟩
  | 12 => ⟨S262144, .i32⟩
  | 13 => ⟨S282144, .i32⟩
  | 14 => ⟨S_, .f32⟩
  | 15 => ⟨S282144, .f32⟩
  | 16 => ⟨S_, .f32⟩
  | 17 => ⟨S20000, .f32⟩
  | 18 => ⟨S282144x1, .i32⟩
  | 19 => ⟨S20000, .f32⟩
  | 20 => ⟨S_, .f32⟩
  | 21 => ⟨S20000, .f32⟩
  | 22 => ⟨S20000, .i1⟩
  | 23 => ⟨S_, .f32⟩
  | 24 => ⟨S20000, .f32⟩
  | 25 => ⟨S20000, .f32⟩
  | 26 => ⟨S20000, .f32⟩
  | 27 => ⟨S_, .f32⟩
  | 28 => ⟨S_, .f32⟩
  | 29 => ⟨S20000, .f32⟩
  | 30 => ⟨S20000, .f32⟩
  | 31 => ⟨S_, .i32⟩
  | 32 => ⟨S282144, .i32⟩
  | 33 => ⟨S282144, .i1⟩
  | 34 => ⟨S_, .i32⟩
  | 35 => ⟨S282144, .i32⟩
  | 36 => ⟨S282144, .i32⟩
  | 37 => ⟨S282144, .i32⟩
  | 38 => ⟨S282144x1, .i32⟩
  | 39 => ⟨S282144, .f32⟩
  | 40 => ⟨S_, .i32⟩
  | 41 => ⟨S282144, .i32⟩
  | 42 => ⟨S282144, .i1⟩
  | 43 => ⟨S_, .i32⟩
  | 44 => ⟨S282144, .i32⟩
  | 45 => ⟨S282144, .i32⟩
  | 46 => ⟨S282144, .i32⟩
  | 47 => ⟨S282144x1, .i32⟩
  | 48 => ⟨S282144, .f32⟩
  | 49 => ⟨S282144, .f32⟩
  | 50 => ⟨S20000x768, .f32⟩
  | 51 => ⟨S_, .i32⟩
  | 52 => ⟨S282144, .i32⟩
  | 53 => ⟨S282144, .i1⟩
  | 54 => ⟨S_, .i32⟩
  | 55 => ⟨S282144, .i32⟩
  | 56 => ⟨S282144, .i32⟩
  | 57 => ⟨S282144, .i32⟩
  | 58 => ⟨S282144x1, .i32⟩
  | 59 => ⟨S282144x768, .f32⟩
  | 60 => ⟨S282144x1, .f32⟩
  | 61 => ⟨S282144x768, .f32⟩
  | 62 => ⟨S282144x768, .f32⟩
  | 63 => ⟨S_, .f32⟩
  | 64 => ⟨S20000x768, .f32⟩
  | 65 => ⟨S282144x1, .i32⟩
  | 66 => ⟨S20000x768, .f32⟩
  | 67 => ⟨S1x768, .f32⟩
  | 68 => ⟨S20000x768, .f32⟩
  | 69 => ⟨S20000x768, .f32⟩
  | 70 => ⟨S20000x768, .f32⟩
  | 71 => ⟨S_, .f32⟩
  | 72 => ⟨S282144, .f32⟩
  | 73 => ⟨S_, .f32⟩
  | 74 => ⟨S20000, .f32⟩
  | 75 => ⟨S282144x1, .i32⟩
  | 76 => ⟨S20000, .f32⟩
  | 77 => ⟨S_, .f32⟩
  | 78 => ⟨S20000, .f32⟩
  | 79 => ⟨S20000, .i1⟩
  | 80 => ⟨S_, .f32⟩
  | 81 => ⟨S20000, .f32⟩
  | 82 => ⟨S20000, .f32⟩
  | 83 => ⟨S20000, .f32⟩
  | 84 => ⟨S_, .f32⟩
  | 85 => ⟨S_, .f32⟩
  | 86 => ⟨S20000, .f32⟩
  | 87 => ⟨S20000, .f32⟩
  | 88 => ⟨S_, .i32⟩
  | 89 => ⟨S282144, .i32⟩
  | 90 => ⟨S282144, .i1⟩
  | 91 => ⟨S_, .i32⟩
  | 92 => ⟨S282144, .i32⟩
  | 93 => ⟨S282144, .i32⟩
  | 94 => ⟨S282144, .i32⟩
  | 95 => ⟨S282144x1, .i32⟩
  | 96 => ⟨S282144, .f32⟩
  | 97 => ⟨S_, .i32⟩
  | 98 => ⟨S282144, .i32⟩
  | 99 => ⟨S282144, .i1⟩
  | 100 => ⟨S_, .i32⟩
  | 101 => ⟨S282144, .i32⟩
  | 102 => ⟨S282144, .i32⟩
  | 103 => ⟨S282144, .i32⟩
  | 104 => ⟨S282144x1, .i32⟩
  | 105 => ⟨S282144, .f32⟩
  | 106 => ⟨S282144, .f32⟩
  | 107 => ⟨S20000x768, .f32⟩
  | 108 => ⟨S_, .i32⟩
  | 109 => ⟨S282144, .i32⟩
  | 110 => ⟨S282144, .i1⟩
  | 111 => ⟨S_, .i32⟩
  | 112 => ⟨S282144, .i32⟩
  | 113 => ⟨S282144, .i32⟩
  | 114 => ⟨S282144, .i32⟩
  | 115 => ⟨S282144x1, .i32⟩
  | 116 => ⟨S282144x768, .f32⟩
  | 117 => ⟨S282144x1, .f32⟩
  | 118 => ⟨S282144x768, .f32⟩
  | 119 => ⟨S282144x768, .f32⟩
  | 120 => ⟨S_, .f32⟩
  | 121 => ⟨S20000x768, .f32⟩
  | 122 => ⟨S282144x1, .i32⟩
  | 123 => ⟨S20000x768, .f32⟩
  | 124 => ⟨S1x768, .f32⟩
  | 125 => ⟨S20000x768, .f32⟩
  | 126 => ⟨S20000x768, .f32⟩
  | 127 => ⟨S20000x768, .f32⟩
  | _ => ⟨S20000x768, .f32⟩

abbrev hbmTy0_1 (i : Nat) : BufTy := match i % 128 with
  | 0 => ⟨S_, .i32⟩
  | 1 => ⟨S64, .i32⟩
  | 2 => ⟨S64, .i1⟩
  | 3 => ⟨S_, .i32⟩
  | 4 => ⟨S64, .i32⟩
  | 5 => ⟨S64, .i32⟩
  | 6 => ⟨S64, .i32⟩
  | 7 => ⟨S64x1, .i32⟩
  | 8 => ⟨S64x768, .f32⟩
  | 9 => ⟨S_, .f32⟩
  | 10 => ⟨S768, .f32⟩
  | 11 => ⟨S_, .f32⟩
  | 12 => ⟨S768, .f32⟩
  | 13 => ⟨S768, .f32⟩
  | _ => ⟨S20000x768, .f32⟩

abbrev hbmTy (i : Nat) : BufTy := match i / 128 with
  | 0 => hbmTy0_0 i
  | 1 => hbmTy0_1 i
  | _ => ⟨S20000x768, .f32⟩

abbrev bufTy : (tb : Table) → Fin (tcTables nBuf tb) → BufTy
  | .hbm, ⟨i, _⟩ => hbmTy i
  | _, _ => ⟨S20000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_call1_v0 : Ref sig .tc := ⟨.hbm, 85, rfl⟩
abbrev main_call1_v1 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_17 : Ref sig .tc := ⟨.hbm, 97, rfl⟩
abbrev main_v67 : Ref sig .tc := ⟨.hbm, 98, rfl⟩
abbrev main_v68 : Ref sig .tc := ⟨.hbm, 99, rfl⟩
abbrev main_c_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_19 : Ref sig .tc := ⟨.hbm, 108, rfl⟩
abbrev main_v76 : Ref sig .tc := ⟨.hbm, 109, rfl⟩
abbrev main_v77 : Ref sig .tc := ⟨.hbm, 110, rfl⟩
abbrev main_c_20 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_21 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_22 : Ref sig .tc := ⟨.hbm, 128, rfl⟩
abbrev main_v93 : Ref sig .tc := ⟨.hbm, 129, rfl⟩
abbrev main_v94 : Ref sig .tc := ⟨.hbm, 130, rfl⟩
abbrev main_c_23 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_24 : Ref sig .tc := ⟨.hbm, 137, rfl⟩
abbrev main_v100 : Ref sig .tc := ⟨.hbm, 138, rfl⟩
abbrev main_cst_25 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S20000_S282144_d0 : Shape.Concatenates [S262144, S20000] S282144 0
  slices_S2x262144_S1x262144_1_0 : S2x262144.Slices ![1, 0] S1x262144
  bcast_S_S282144 : S_.BroadcastsInDim S282144 (![] : Fin 0 → Fin S282144.rank)
  bcast_S_S20000 : S_.BroadcastsInDim S20000 (![] : Fin 0 → Fin S20000.rank)
  bcast_S282144_S282144x1_0 : S282144.BroadcastsInDim S282144x1 (![0] : Fin 1 → Fin S282144x1.rank)
  bcast_S282144x1_S282144x768_0_1 : S282144x1.BroadcastsInDim S282144x768 (![0, 1] : Fin 2 → Fin S282144x768.rank)
  bcast_S_S20000x768 : S_.BroadcastsInDim S20000x768 (![] : Fin 0 → Fin S20000x768.rank)
  bcast_S768_S1x768_1 : S768.BroadcastsInDim S1x768 (![1] : Fin 1 → Fin S1x768.rank)
  bcast_S1x768_S20000x768_0_1 : S1x768.BroadcastsInDim S20000x768 (![0, 1] : Fin 2 → Fin S20000x768.rank)
  bcast_S_S64 : S_.BroadcastsInDim S64 (![] : Fin 0 → Fin S64.rank)
  bcast_S64_S64x1_0 : S64.BroadcastsInDim S64x1 (![0] : Fin 1 → Fin S64x1.rank)
  reducesTo_S64x768_S768_d0 : S64x768.ReducesTo [0] S768
  h_S_ : 0 < S_.numel
  bcast_S_S768 : S_.BroadcastsInDim S768 (![] : Fin 0 → Fin S768.rank)
  scatter_S20000_S282144x1_S282144_n_0_0_1_wf : ScatterDims.WF S20000 S282144x1 S282144 [] [0] [0] 1
  gather_S20000_S282144x1_S282144_n_0_n_n_0_1_1_wf : GatherDims.WF S20000 S282144x1 S282144 [] [0] [] [0] [] 1 ![1]
  dot_S20000x768_S768x768_S20000x768_1_0_0_1_n_n_wf : DotDims.WF S20000x768 S768x768 S20000x768 [1] [0] [0] [1] [] []
  gather_S20000x768_S282144x1_S282144x768_1_0_n_n_0_1_1768_wf : GatherDims.WF S20000x768 S282144x1 S282144x768 [1] [0] [] [0] [] 1 ![1, 768]
  scatter_S20000x768_S282144x1_S282144x768_1_0_0_1_wf : ScatterDims.WF S20000x768 S282144x1 S282144x768 [1] [0] [0] 1
  gather_S20000x768_S64x1_S64x768_1_0_n_n_0_1_1768_wf : GatherDims.WF S20000x768 S64x1 S64x768 [1] [0] [] [0] [] 1 ![1, 768]

variable [Facts₀]

def scatter_S20000_S282144x1_S282144_n_0_0_1 : ScatterDims S20000 S282144x1 S282144 where
  updateWindowDims := []
  insertedWindowDims := [0]
  scatterDimsToOperandDims := [0]
  indexVectorDim := 1
  wf := scatter_S20000_S282144x1_S282144_n_0_0_1_wf
def gather_S20000_S282144x1_S282144_n_0_n_n_0_1_1 : GatherDims S20000 S282144x1 S282144 where
  offsetDims := []
  collapsedSliceDims := [0]
  operandBatchingDims := []
  startIndicesBatchingDims := []
  startIndexMap := [0]
  indexVectorDim := 1
  sliceSizes := ![1]
  wf := gather_S20000_S282144x1_S282144_n_0_n_n_0_1_1_wf
def dot_S20000x768_S768x768_S20000x768_1_0_0_1_n_n : DotDims S20000x768 S768x768 S20000x768 where
  lhsContracting := [1]
  rhsContracting := [0]
  lhsNonContracting := [0]
  rhsNonContracting := [1]
  lhsBatch := []
  rhsBatch := []
  wf := dot_S20000x768_S768x768_S20000x768_1_0_0_1_n_n_wf
def gather_S20000x768_S282144x1_S282144x768_1_0_n_n_0_1_1768 : GatherDims S20000x768 S282144x1 S282144x768 where
  offsetDims := [1]
  collapsedSliceDims := [0]
  operandBatchingDims := []
  startIndicesBatchingDims := []
  startIndexMap := [0]
  indexVectorDim := 1
  sliceSizes := ![1, 768]
  wf := gather_S20000x768_S282144x1_S282144x768_1_0_n_n_0_1_1768_wf
def scatter_S20000x768_S282144x1_S282144x768_1_0_0_1 : ScatterDims S20000x768 S282144x1 S282144x768 where
  updateWindowDims := [1]
  insertedWindowDims := [0]
  scatterDimsToOperandDims := [0]
  indexVectorDim := 1
  wf := scatter_S20000x768_S282144x1_S282144x768_1_0_0_1_wf
def gather_S20000x768_S64x1_S64x768_1_0_n_n_0_1_1768 : GatherDims S20000x768 S64x1 S64x768 where
  offsetDims := [1]
  collapsedSliceDims := [0]
  operandBatchingDims := []
  startIndicesBatchingDims := []
  startIndexMap := [0]
  indexVectorDim := 1
  sliceSizes := ![1, 768]
  wf := gather_S20000x768_S64x1_S64x768_1_0_n_n_0_1_1768_wf

class Facts : Prop extends Facts₀ where

variable [Facts]
-- ==== Proof.BlockMatmul.lean ====
/-
  One block of the product. A grid point multiplies a block of 1000 rows of the left operand with the whole weight: both
  operands are first cast to bf16, which over the extended reals changes nothing, and the product is accumulated into
  zero, so the block's entry at row `p`, column `q` is the plain sum over `k` of `x p k · w k q`. The second layer's
  body first re-lays its block to the shape it already has, which is the identity too.
-/
import proofs.«114199_j39805756900005_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.TcCoe

/-! ## Which entries of the operands the product's entry `i` multiplies -/

theorem lhs_ax0 (i : S1000x768.Idx) (q : dot_S1000x768_S768x768_S1000x768_1_0_0_1_n_n.contr.Idx) :
    (dot_S1000x768_S768x768_S1000x768_1_0_0_1_n_n.lhsIdx i q 0).val = (i 0).val := by
  unfold DotDims.lhsIdx
  rw [dif_neg (show ¬(0 : Fin S1000x768.rank) ∈ dot_S1000x768_S768x768_S1000x768_1_0_0_1_n_n.lhsBatch by decide), dif_pos (show (0 : Fin S1000x768.rank) ∈ dot_S1000x768_S768x768_S1000x768_1_0_0_1_n_n.lhsNonContracting by decide)]
  rfl
theorem lhs_ax1 (i : S1000x768.Idx) (q : dot_S1000x768_S768x768_S1000x768_1_0_0_1_n_n.contr.Idx) :
    (dot_S1000x768_S768x768_S1000x768_1_0_0_1_n_n.lhsIdx i q 1).val = (q ⟨0, by decide⟩).val :=
  dot_S1000x768_S768x768_S1000x768_1_0_0_1_n_n.lhsIdx_val_of_single rfl i q
theorem rhs_ax0 (i : S1000x768.Idx) (q : dot_S1000x768_S768x768_S1000x768_1_0_0_1_n_n.contr.Idx) :
    (dot_S1000x768_S768x768_S1000x768_1_0_0_1_n_n.rhsIdx i q 0).val = (q ⟨0, by decide⟩).val :=
  dot_S1000x768_S768x768_S1000x768_1_0_0_1_n_n.rhsIdx_val_of_single rfl i q
theorem rhs_ax1 (i : S1000x768.Idx) (q : dot_S1000x768_S768x768_S1000x768_1_0_0_1_n_n.contr.Idx) :
    (dot_S1000x768_S768x768_S1000x768_1_0_0_1_n_n.rhsIdx i q 1).val = (i 1).val := by
  unfold DotDims.rhsIdx
  rw [dif_neg (show ¬(1 : Fin S768x768.rank) ∈ dot_S1000x768_S768x768_S1000x768_1_0_0_1_n_n.rhsBatch by decide), dif_pos (show (1 : Fin S768x768.rank) ∈ dot_S1000x768_S768x768_S1000x768_1_0_0_1_n_n.rhsNonContracting by decide)]
  rfl

/-- Row of `i`, column `k` of the block of rows. -/
abbrev bl (i : S1000x768.Idx) (k : Fin 768) : S1000x768.Idx := fun a => match a with
  | ⟨0, _⟩ => ⟨(i 0).val, (i 0).isLt⟩
  | ⟨1, _⟩ => ⟨k.val, k.isLt⟩
/-- Row `k`, column of `i` of the weight. -/
abbrev br (i : S1000x768.Idx) (k : Fin 768) : S768x768.Idx := fun a => match a with
  | ⟨0, _⟩ => ⟨k.val, k.isLt⟩
  | ⟨1, _⟩ => ⟨(i 1).val, (i 1).isLt⟩

/-! ## The product into a zero accumulator is the plain sum -/

theorem matmul_zero_apply (a : FVec Ideal S1000x768 .bf16) (w : FVec Ideal S768x768 .bf16) (i : S1000x768.Idx) :
    matmul dot_S1000x768_S768x768_S1000x768_1_0_0_1_n_n none a w (constant (F := Ideal) S1000x768 .f32 0x00000000#32) i
      = ∑ k : Fin 768, a (bl i k) * w (br i k) := by
  refine (Ideal.matmul_constant_zero_apply dot_S1000x768_S768x768_S1000x768_1_0_0_1_n_n none a w i).trans ?_
  rw [← Equiv.sum_comp (ValueIdx.contrEquiv1 dot_S1000x768_S768x768_S1000x768_1_0_0_1_n_n 768 rfl rfl).symm]
  refine Finset.sum_congr rfl fun k _ => ?_
  have hk := ValueIdx.contrEquiv1_symm_val dot_S1000x768_S768x768_S1000x768_1_0_0_1_n_n 768 rfl rfl k
  have el : dot_S1000x768_S768x768_S1000x768_1_0_0_1_n_n.lhsIdx i ((ValueIdx.contrEquiv1 dot_S1000x768_S768x768_S1000x768_1_0_0_1_n_n 768 rfl rfl).symm k) = bl i k := funext fun a => Fin.ext (by
    match a with
    | ⟨0, _⟩ => exact lhs_ax0 _ _
    | ⟨1, _⟩ => exact (lhs_ax1 _ _).trans hk)
  have er : dot_S1000x768_S768x768_S1000x768_1_0_0_1_n_n.rhsIdx i ((ValueIdx.contrEquiv1 dot_S1000x768_S768x768_S1000x768_1_0_0_1_n_n 768 rfl rfl).symm k) = br i k := funext fun a => Fin.ext (by
    match a with
    | ⟨0, _⟩ => exact (rhs_ax0 _ _).trans hk
    | ⟨1, _⟩ => exact rhs_ax1 _ _)
  rw [el, er]

/-! ## The two bodies' stored values at an entry -/

/-- First layer: the stored block at entry `i` is the sum over `k` of the loaded rows' and the loaded weight's products. -/
theorem pay0_apply (x : Vec Ideal S1000x768 .f32) (w : Vec Ideal S768x768 .f32) (i : S1000x768.Idx) :
    k0_pay1 (F := Ideal) x w i = ∑ k : Fin 768, x (bl i k) * w (br i k) := by
  unfold k0_pay1
  exact matmul_zero_apply _ _ i

/-- Second layer: the same, the re-laying of the block to its own shape being the identity. -/
theorem pay1_apply (x : Vec Ideal S1000x768 .f32) (w : Vec Ideal S768x768 .f32) (i : S1000x768.Idx) :
    k1_pay1 (F := Ideal) x w i = ∑ k : Fin 768, x (bl i k) * w (br i k) := by
  unfold k1_pay1
  rw [shapeCast_self]
  exact matmul_zero_apply _ _ i

end Cert.KernelIdeal.Block

end
-- ==== Proof.Spec.lean ====
/-
  The one piece of mathematics in which the two programs differ: a product of a 20000 × 768 matrix (node features, or the
  hidden activations of the first layer) with a 768 × 768 weight matrix. Over the extended reals the entry at row `r`,
  column `j` is the sum over `k` of `A r k · W k j`; neither a change of float format nor the grouping of the rows into
  blocks is visible in it. Both programs' products are shown equal to this one function `rowsTimes`.
-/
import Idealize.ShloMosaic.PureOps.Ideal

noncomputable section

namespace Cert.Spec

open Idealize.ShloMosaic

/-- The left operand's and the product's shape: 20000 rows of 768 entries. -/
abbrev SA : Shape := ⟨2, ![20000, 768]⟩
/-- The weight's shape. -/
abbrev SW : Shape := ⟨2, ![768, 768]⟩

/-- The left operand's entry that enters the product's entry `i` at the summation index `k`: row of `i`, column `k`. -/
abbrev lcell (i : SA.Idx) (k : Fin 768) : SA.Idx := fun a => match a with
  | ⟨0, _⟩ => ⟨(i 0).val, (i 0).isLt⟩
  | ⟨1, _⟩ => ⟨k.val, k.isLt⟩
/-- The weight's entry that enters it: row `k`, column of `i`. -/
abbrev rcell (i : SA.Idx) (k : Fin 768) : SW.Idx := fun a => match a with
  | ⟨0, _⟩ => ⟨k.val, k.isLt⟩
  | ⟨1, _⟩ => ⟨(i 1).val, (i 1).isLt⟩

/-- Rows times columns over the extended reals. -/
def rowsTimes (A : SA.Idx → EReal) (W : SW.Idx → EReal) : SA.Idx → EReal :=
  fun i => ∑ k : Fin 768, A (lcell i k) * W (rcell i k)

theorem rowsTimes_apply (A : SA.Idx → EReal) (W : SW.Idx → EReal) (i : SA.Idx) :
    rowsTimes A W i = ∑ k : Fin 768, A (lcell i k) * W (rcell i k) := rfl

end Cert.Spec

end
-- ==== Proof.RegionValue.lean ====
/-
  What each of the two matrix-product regions leaves in its result array, whatever the buffers hold when it is entered.
  The grid has 20 points; point `t` reads rows 1000·t … 1000·t + 999 of the left operand and the whole weight and writes
  rows 1000·t … 1000·t + 999 of the result. An entry of that block is the sum over `k` of the loaded rows' and the loaded
  weight's products, which is the entry of `rowsTimes` of the two whole arrays at the same row and column; the 20 blocks
  tile the 20000 rows (row `r` is in block `r / 1000`), so the whole result array is `rowsTimes` of the two arrays.
-/
import proofs.«114199_j39805756900005_1_alg».proof.Proof.Gen.KernelIdeal.Frame
import proofs.«114199_j39805756900005_1_alg».proof.Proof.BlockMatmul
import proofs.«114199_j39805756900005_1_alg».proof.Proof.Spec
import Idealize.ShloMosaic.Lib.Pipeline.Value

set_option maxRecDepth 16384

noncomputable section

namespace Cert.KernelIdeal.Region

open Cert.KernelIdeal Cert.KernelIdeal.Gen Cert.KernelIdeal.Block Cert.Spec
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first layer's product -/

/-- The arrays the region reads, at their literal types. -/
abbrev lhs0 (c : Dev nD) : SA.Idx → EReal := V c main_arg0
abbrev wgt0 (c : Dev nD) : SW.Idx → EReal := V c main_arg3

/-- Over the 20 points: the rows' block and the result's block are block `t` of rows, the weight's is the whole weight. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0 (c : Dev nD) (t : Fin cfg0.N) :
    (dat0 V c).flushed 2 t = ((cfg0.win 2).blk t).view.read (Elt Ideal) (rowsTimes (lhs0 V c) (wgt0 V c)) := by
  show (cfg0.win 2).cut (grid0.coords t) ((dat0 V c).after 2 t) = _
  rw [after0_2]
  unfold out0_2
  rw [View.canon_unit_zero hz]
  simp only [View.ld_unit_zero (S := S1000x768) hz, View.ld_unit_zero (S := S768x768) hz]
  obtain ⟨e0, e1, e2, e3, e4, e5⟩ := idx_facts0 t
  funext j
  show k0_pay1 (F := Ideal) (iblk0 V c 0 t) (iblk0 V c 1 t) j = rowsTimes (lhs0 V c) (wgt0 V c) (((cfg0.win 2).blk t).view.emb j)
  rw [pay0_apply, rowsTimes_apply]
  refine Finset.sum_congr rfl fun k _ => ?_
  show lhs0 V c (((cfg0.win 0).blk t).view.emb (bl j k)) * wgt0 V c (((cfg0.win 1).blk t).view.emb (br j k))
      = lhs0 V c (lcell (((cfg0.win 2).blk t).view.emb j) k) * wgt0 V c (rcell (((cfg0.win 2).blk t).view.emb j) k)
  have h0 : ((cfg0.win 0).blk t).view.emb (bl j k) = lcell (((cfg0.win 2).blk t).view.emb j) k := by
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 768 + 1 * k.val = k.val; omega
  have h1 : ((cfg0.win 1).blk t).view.emb (br j k) = rcell (((cfg0.win 2).blk t).view.emb j) k := by
    funext a; apply Fin.ext
    match a with
    | ⟨0, _⟩ => show win0_1.index t (0 : Fin 2) * 768 + 1 * k.val = k.val; omega
    | ⟨1, _⟩ => show win0_1.index t (1 : Fin 2) * 768 + 1 * (j 1).val = win0_2.index t (1 : Fin 2) * 768 + 1 * (j 1).val; omega
  rw [h0, h1]

/-- An index of the result array is in point `t`'s block iff each coordinate is in the block's range on its axis. -/
theorem mem_blk0 (t : Fin cfg0.N) (i : S20000x768.Idx) :
    i ∈ ((cfg0.win 2).blk t).view.set ↔ ∀ a : Fin 2, win0_2.index t a * S1000x768.size a ≤ (i a).val ∧ (i a).val < win0_2.index t a * S1000x768.size a + S1000x768.size a := by
  show i ∈ ((View.whole main_v32).slice (win0_2.rect t)).set ↔ _
  rw [View.set_slice_whole, Rect.mem_set_unit]
  exact Iff.rfl

/-- Every row is in the block of its thousand. -/
theorem cover0 (i : S20000x768.Idx) : ∃ t : Fin cfg0.N, (cfg0.win 2).flush t = true ∧ i ∈ ((cfg0.win 2).blk t).view.set := by
  have hi0 : (i 0).val < 20000 := (i 0).isLt
  have hi1 : (i 1).val < 768 := (i 1).isLt
  have ht : (i 0).val / 1000 < 20 := by omega
  refine ⟨⟨(i 0).val / 1000, ht⟩, flush0_2 _, ?_⟩
  obtain ⟨-, -, -, -, e4, e5⟩ := idx_facts0 ⟨(i 0).val / 1000, ht⟩
  rw [mem_blk0]
  intro a
  match a with
  | ⟨0, _⟩ =>
    show win0_2.index ⟨(i 0).val / 1000, ht⟩ (0 : Fin 2) * 1000 ≤ (i 0).val ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 768 ≤ (i 1).val ∧ (i 1).val < win0_2.index ⟨(i 0).val / 1000, ht⟩ (1 : Fin 2) * 768 + 768
    rw [e5]; omega

/-- After the region its result array is the product of the two arrays it was entered with. -/
theorem value0 (c : Dev nD) : (dat0 V c).arrAt 2 cfg0.N = rowsTimes (lhs0 V c) (wgt0 V c) :=
  (dat0 V c).arrAt_eq_of_cover 2 _ (fun t _ => flushed0 V c t) cover0

/-! ## The second layer's product -/

abbrev lhs1 (c : Dev nD) : SA.Idx → EReal := V c main_v49
abbrev wgt1 (c : Dev nD) : SW.Idx → EReal := V c main_arg5

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed1 (c : Dev nD) (t : Fin cfg1.N) :
    (dat1 V c).flushed 2 t = ((cfg1.win 2).blk t).view.read (Elt Ideal) (rowsTimes (lhs1 V c) (wgt1 V c)) := by
  show (cfg1.win 2).cut (grid1.coords t) ((dat1 V c).after 2 t) = _
  rw [after1_2]
  unfold out1_2
  rw [View.canon_unit_zero hz]
  simp only [View.ld_unit_zero (S := S1000x768) hz, View.ld_unit_zero (S := S768x768) hz]
  obtain ⟨e0, e1, e2, e3, e4, e5⟩ := idx_facts1 t
  funext j
  show k1_pay1 (F := Ideal) (iblk1 V c 0 t) (iblk1 V c 1 t) j = rowsTimes (lhs1 V c) (wgt1 V c) (((cfg1.win 2).blk t).view.emb j)
  rw [pay1_apply, rowsTimes_apply]
  refine Finset.sum_congr rfl fun k _ => ?_
  show lhs1 V c (((cfg1.win 0).blk t).view.emb (bl j k)) * wgt1 V c (((cfg1.win 1).blk t).view.emb (br j k))
      = lhs1 V c (lcell (((cfg1.win 2).blk t).view.emb j) k) * wgt1 V c (rcell (((cfg1.win 2).blk t).view.emb j) k)
  have h0 : ((cfg1.win 0).blk t).view.emb (bl j k) = lcell (((cfg1.win 2).blk t).view.emb j) k := by
    funext a; apply Fin.ext
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 768 + 1 * k.val = k.val; omega
  have h1 : ((cfg1.win 1).blk t).view.emb (br j k) = rcell (((cfg1.win 2).blk t).view.emb j) k := by
    funext a; apply Fin.ext
    match a with
    | ⟨0, _⟩ => show win1_1.index t (0 : Fin 2) * 768 + 1 * k.val = k.val; omega
    | ⟨1, _⟩ => show win1_1.index t (1 : Fin 2) * 768 + 1 * (j 1).val = win1_2.index t (1 : Fin 2) * 768 + 1 * (j 1).val; omega
  rw [h0, h1]

theorem mem_blk1 (t : Fin cfg1.N) (i : S20000x768.Idx) :
    i ∈ ((cfg1.win 2).blk t).view.set ↔ ∀ a : Fin 2, win1_2.index t a * S1000x768.size a ≤ (i a).val ∧ (i a).val < win1_2.index t a * S1000x768.size a + S1000x768.size a := by
  show i ∈ ((View.whole main_v75).slice (win1_2.rect t)).set ↔ _
  rw [View.set_slice_whole, Rect.mem_set_unit]
  exact Iff.rfl

theorem cover1 (i : S20000x768.Idx) : ∃ t : Fin cfg1.N, (cfg1.win 2).flush t = true ∧ i ∈ ((cfg1.win 2).blk t).view.set := by
  have hi0 : (i 0).val < 20000 := (i 0).isLt
  have hi1 : (i 1).val < 768 := (i 1).isLt
  have ht : (i 0).val / 1000 < 20 := by omega
  refine ⟨⟨(i 0).val / 1000, ht⟩, flush1_2 _, ?_⟩
  obtain ⟨-, -, -, -, e4, e5⟩ := idx_facts1 ⟨(i 0).val / 1000, ht⟩
  rw [mem_blk1]
  intro a
  match a with
  | ⟨0, _⟩ =>
    show win1_2.index ⟨(i 0).val / 1000, ht⟩ (0 : Fin 2) * 1000 ≤ (i 0).val ∧ (i 0).val < win1_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win1_2.index ⟨(i 0).val / 1000, ht⟩ (1 : Fin 2) * 768 ≤ (i 1).val ∧ (i 1).val < win1_2.index ⟨(i 0).val / 1000, ht⟩ (1 : Fin 2) * 768 + 768
    rw [e5]; omega

theorem value1 (c : Dev nD) : (dat1 V c).arrAt 2 cfg1.N = rowsTimes (lhs1 V c) (wgt1 V c) :=
  (dat1 V c).arrAt_eq_of_cover 2 _ (fun t _ => flushed1 V c t) cover1

end Cert.KernelIdeal.Region

end
-- ==== Proof.RefDot.lean ====
/-
  The reference's product. On the host the product of the 20000 × 768 matrix with the 768 × 768 weight is a `dot_general`
  contracting the left operand's columns with the weight's rows; over the extended reals its entry at `i` is the sum over
  `k` of the left operand at (row of `i`, `k`) times the weight at (`k`, column of `i`): the function `rowsTimes`.
-/
import proofs.«114199_j39805756900005_1_alg».proof.ReferenceIdeal
import proofs.«114199_j39805756900005_1_alg».proof.Proof.Gen.ReferenceIdeal
import proofs.«114199_j39805756900005_1_alg».proof.Proof.Spec
import Idealize.ShloMosaic.PureOps.Ideal.Laws
import Idealize.ShloMosaic.Lib.ValueIdx

noncomputable section

namespace Cert.ReferenceIdeal.Dot

open Cert.ReferenceIdeal Cert.ReferenceIdeal.Gen Cert.Spec Idealize.ShloMosaic Idealize.ShloMosaic.TcCoe

theorem lhs_ax0 (i : S20000x768.Idx) (q : dot_S20000x768_S768x768_S20000x768_1_0_0_1_n_n.contr.Idx) :
    (dot_S20000x768_S768x768_S20000x768_1_0_0_1_n_n.lhsIdx i q 0).val = (i 0).val := by
  unfold DotDims.lhsIdx
  rw [dif_neg (show ¬(0 : Fin S20000x768.rank) ∈ dot_S20000x768_S768x768_S20000x768_1_0_0_1_n_n.lhsBatch by decide), dif_pos (show (0 : Fin S20000x768.rank) ∈ dot_S20000x768_S768x768_S20000x768_1_0_0_1_n_n.lhsNonContracting by decide)]
  rfl
theorem lhs_ax1 (i : S20000x768.Idx) (q : dot_S20000x768_S768x768_S20000x768_1_0_0_1_n_n.contr.Idx) :
    (dot_S20000x768_S768x768_S20000x768_1_0_0_1_n_n.lhsIdx i q 1).val = (q ⟨0, by decide⟩).val :=
  dot_S20000x768_S768x768_S20000x768_1_0_0_1_n_n.lhsIdx_val_of_single rfl i q
theorem rhs_ax0 (i : S20000x768.Idx) (q : dot_S20000x768_S768x768_S20000x768_1_0_0_1_n_n.contr.Idx) :
    (dot_S20000x768_S768x768_S20000x768_1_0_0_1_n_n.rhsIdx i q 0).val = (q ⟨0, by decide⟩).val :=
  dot_S20000x768_S768x768_S20000x768_1_0_0_1_n_n.rhsIdx_val_of_single rfl i q
theorem rhs_ax1 (i : S20000x768.Idx) (q : dot_S20000x768_S768x768_S20000x768_1_0_0_1_n_n.contr.Idx) :
    (dot_S20000x768_S768x768_S20000x768_1_0_0_1_n_n.rhsIdx i q 1).val = (i 1).val := by
  unfold DotDims.rhsIdx
  rw [dif_neg (show ¬(1 : Fin S768x768.rank) ∈ dot_S20000x768_S768x768_S20000x768_1_0_0_1_n_n.rhsBatch by decide), dif_pos (show (1 : Fin S768x768.rank) ∈ dot_S20000x768_S768x768_S20000x768_1_0_0_1_n_n.rhsNonContracting by decide)]
  rfl

/-- The host's product of the two matrices is rows times columns. -/
theorem dot_eq (A : FVec Ideal S20000x768 .f32) (W : FVec Ideal S768x768 .f32) :
    Host.dotGeneral (F := Ideal) dot_S20000x768_S768x768_S20000x768_1_0_0_1_n_n none A W = rowsTimes A W := by
  funext i
  simp only [Host.dotGeneral]
  rw [Ideal.dotGeneral_apply, ← Equiv.sum_comp (ValueIdx.contrEquiv1 dot_S20000x768_S768x768_S20000x768_1_0_0_1_n_n 768 rfl rfl).symm, rowsTimes_apply]
  refine Finset.sum_congr rfl fun k _ => ?_
  have hk := ValueIdx.contrEquiv1_symm_val dot_S20000x768_S768x768_S20000x768_1_0_0_1_n_n 768 rfl rfl k
  have el : dot_S20000x768_S768x768_S20000x768_1_0_0_1_n_n.lhsIdx i ((ValueIdx.contrEquiv1 dot_S20000x768_S768x768_S20000x768_1_0_0_1_n_n 768 rfl rfl).symm k) = lcell i k := funext fun a => Fin.ext (by
    match a with
    | ⟨0, _⟩ => exact lhs_ax0 _ _
    | ⟨1, _⟩ => exact (lhs_ax1 _ _).trans hk)
  have er : dot_S20000x768_S768x768_S20000x768_1_0_0_1_n_n.rhsIdx i ((ValueIdx.contrEquiv1 dot_S20000x768_S768x768_S20000x768_1_0_0_1_n_n 768 rfl rfl).symm k) = rcell i k := funext fun a => Fin.ext (by
    match a with
    | ⟨0, _⟩ => exact (rhs_ax0 _ _).trans hk
    | ⟨1, _⟩ => exact rhs_ax1 _ _)
  rw [el, er]

end Cert.ReferenceIdeal.Dot

end
-- ==== Proof.Chain.lean ====
/-
  The host computation around the two products, for any float family.
  Both programs build the same graph convolution around each product: the edge list with self loops appended, the
  degree of every node by a scatter-add of ones, its inverse square root where the degree is positive, the per-edge
  weight as the product of the two endpoints' inverse roots, then gather the product's rows by source node, scale by
  the edge weight, scatter-add into the destination nodes, add the bias and take tanh; after the second layer the rows
  of the 64 root nodes are gathered and averaged. Every one of these operations is the same operation on the same
  operands in both programs, so nothing about them needs to be known: if each region leaves in its result array the
  host's product of the two arrays it read (`H4`, `H8`), then the kernel program's result buffer, read back through
  the boundaries of its run from the last to the launch memory, is the reference's composed term, argument arrays that
  agree being interchangeable. Stated for an arbitrary float family: no property of the arithmetic is used.
-/
import proofs.«114199_j39805756900005_1_alg».proof.Proof.Gen.KernelIdeal.Frame
import proofs.«114199_j39805756900005_1_alg».proof.Proof.RefRun

set_option maxRecDepth 16384

noncomputable section

namespace Cert.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that is none of the first region's three arrays holds after the region what it held before it. -/
theorem W4_keep (c : Dev nD) (b : Ref sig .tc) (hb : ∀ w, Pipeline.arrRef spec0 w ≠ b) :
    W4 m ρ c (no_index (Proc.devRef .tc b)) = W3 m ρ c (Proc.devRef .tc b) := W4_of_ne m ρ c b hb
/-- The same for the second region. -/
theorem W8_keep (c : Dev nD) (b : Ref sig .tc) (hb : ∀ w, Pipeline.arrRef spec1 w ≠ b) :
    W8 m ρ c (no_index (Proc.devRef .tc b)) = W7 m ρ c (Proc.devRef .tc b) := W8_of_ne m ρ c b hb

set_option maxHeartbeats 64000000 in
/-- The kernel program's result, read back from the last boundary of its run: the last host stretch applied to what
    the second region left, that region's product taken as the host's product of what the middle stretches computed
    from what the first region left, and so on back to the launch memory. -/
theorem chain_eq (c : Dev nD) (m' : (ℓ : Loc Cert.ReferenceIdeal.nD Cert.ReferenceIdeal.τ Cert.ReferenceIdeal.sig) → Buf (Elt F) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (H4 : W4 m ρ c (Proc.devRef .tc main_v32)
      = Host.dotGeneral (φ₁ := .f32) (φ₂ := .f32) Cert.ReferenceIdeal.dot_S20000x768_S768x768_S20000x768_1_0_0_1_n_n none (W3 m ρ c (Proc.devRef .tc main_arg0)) (W3 m ρ c (Proc.devRef .tc main_arg3)))
    (H8 : W8 m ρ c (Proc.devRef .tc main_v75)
      = Host.dotGeneral (φ₁ := .f32) (φ₂ := .f32) Cert.ReferenceIdeal.dot_S20000x768_S768x768_S20000x768_1_0_0_1_n_n none (W7 m ρ c (Proc.devRef .tc main_v49)) (W7 m ρ c (Proc.devRef .tc main_arg5))) :
    W9 m ρ c (Proc.devRef .tc main_v102) = Cert.ReferenceIdeal.RunP.res_main_v102 m' c := by
  -- the last stretch, over what the second region left
  show StableHlo.after hostOps2 (W8 m ρ c) (Proc.devRef .tc main_v102) = _
  after_results_simp
  rw [H8]
  simp (disch := decide) only [W8_keep]
  -- the middle stretches, over what the first region left
  simp only [W7, W6, W5]
  after_results_simp
  rw [H4]
  simp (disch := decide) only [W4_keep]
  -- the first stretches, over the launch memory
  simp only [W3, W2, W1]
  after_results_simp
  -- the reference's term over arguments that agree
  unfold Cert.ReferenceIdeal.RunP.res_main_v102
  rw [h0, h1, h2, h3, h4, h5, h6]
  rfl

end Cert.Chain

end
-- ==== Proof.Result.lean ====
/-
  The four claims that need an argument.
  Over the extended reals each region's result array is the host's product of the two arrays the region read: the region
  leaves `rowsTimes` of them (block by block, the blocks tiling the rows), and the host's `dot_general` is `rowsTimes`
  too. With that the host chain lemma identifies the kernel program's result with the reference's term, so the two
  programs, run from memories that agree on the arguments, end with the same result; both leave their arguments alone.
  No finiteness of the inputs is needed: only the two products differ between the programs, and they are equal sums.
-/
import proofs.«114199_j39805756900005_1_alg».proof.Defs
import proofs.«114199_j39805756900005_1_alg».proof.Proof.Gen.Kernel.Frame
import proofs.«114199_j39805756900005_1_alg».proof.Proof.Gen.KernelIdeal.Frame
import proofs.«114199_j39805756900005_1_alg».proof.Proof.Gen.Pre_finite_inputs
import proofs.«114199_j39805756900005_1_alg».proof.Proof.KernelRun
import proofs.«114199_j39805756900005_1_alg».proof.Proof.RefRun
import proofs.«114199_j39805756900005_1_alg».proof.Proof.RegionValue
import proofs.«114199_j39805756900005_1_alg».proof.Proof.RefDot
import proofs.«114199_j39805756900005_1_alg».proof.Proof.Chain

set_option maxRecDepth 16384

noncomputable section

namespace Cert.Result

open Cert.KernelIdeal Cert.KernelIdeal.Gen
open Idealize.ShloMosaic Idealize.ShloMosaic.TcCoe Idealize.SL.Sem

section Products

variable (m : (ℓ : Loc nD τ sig) → Buf (Elt Ideal) ℓ) (ρ : Dev nD → PrngReg)

/-- After the first region its result array is the host's product of the node features and the first weight as the
    region found them. -/
theorem W4_out (c : Dev nD) : W4 m ρ c (Proc.devRef .tc main_v32)
    = Host.dotGeneral (F := Ideal) (φ₁ := .f32) (φ₂ := .f32) Cert.ReferenceIdeal.dot_S20000x768_S768x768_S20000x768_1_0_0_1_n_n none (W3 m ρ c (Proc.devRef .tc main_arg0)) (W3 m ρ c (Proc.devRef .tc main_arg3)) :=
  (W4_arr m ρ c 2).trans ((Region.value0 (V3 m ρ) c).trans (Cert.ReferenceIdeal.Dot.dot_eq _ _).symm)

/-- After the second region its result array is the host's product of the first layer's activations and the second weight. -/
theorem W8_out (c : Dev nD) : W8 m ρ c (Proc.devRef .tc main_v75)
    = Host.dotGeneral (F := Ideal) (φ₁ := .f32) (φ₂ := .f32) Cert.ReferenceIdeal.dot_S20000x768_S768x768_S20000x768_1_0_0_1_n_n none (W7 m ρ c (Proc.devRef .tc main_v49)) (W7 m ρ c (Proc.devRef .tc main_arg5)) :=
  (W8_arr m ρ c 2).trans ((Region.value1 (V7 m ρ) c).trans (Cert.ReferenceIdeal.Dot.dot_eq _ _).symm)

/-- The kernel program's result is the reference's term of arguments that agree. -/
theorem result_eq (c : Dev nD) (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    W9 m ρ c (Proc.devRef .tc main_v102) = Cert.ReferenceIdeal.RunP.res_main_v102 m' c :=
  Chain.chain_eq m ρ c m' h0 h1 h2 h3 h4 h5 h6 (W4_out m ρ c) (W8_out m ρ c)

end Products

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- Both programs run; the kernel program's result is its last boundary's contents at the result buffer, the reference's
    is its composed term, and the two are equal when the arguments agree. -/
theorem algebraic : Cert.algebraic_KernelIdeal_ReferenceIdeal := by
  intro m ρ m' ρ' _ hagree
  refine ⟨fun c => W9 m ρ c (Proc.devRef .tc main_v102), ?_, ?_⟩
  · refine (θ_run Cert.KernelIdeal.defs _ _).mono (fun r h c => ?_) (Cert.KernelIdeal.GenP.run_mem (F := Ideal) m ρ)
    exact ⟨h c _ (mem_uc main_v102 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c)⟩
  · refine (θ_run Cert.ReferenceIdeal.defs _ _).mono (fun r h c => ⟨(h c).1.trans ?_, (h c).2⟩) (Cert.ReferenceIdeal.RunP.run (F := Ideal) m' ρ')
    obtain ⟨h0, h1, h2, h3, h4, h5, h6⟩ := hagree c
    exact (result_eq m ρ c m' h0 h1 h2 h3 h4 h5 h6).symm

end Cert.Result

end
-- ==== Proof.lean ====
/- The certificate of a two-layer graph convolution whose two dense products run as blocked matrix-product kernels,
   against the same network written with the host's products.
   The two programs are the same text except for the products. Each kernel multiplies 20 blocks of 1000 rows with the whole
   768 × 768 weight after a cast to bf16 and accumulates into zero; over the extended reals that is the plain rows-times-columns
   sum, block by block, and the blocks tile the 20000 rows, so each kernel leaves the host's product of its operands. The rest of
   the network (degrees, normalisation, gather, scatter-add, bias, tanh, the root nodes' mean) is applied to equal values by both
   programs and is never opened. The frames of the two kernel programs are the generated ones; the reference's is its run. -/
import proofs.«114199_j39805756900005_1_alg».proof.Defs
import proofs.«114199_j39805756900005_1_alg».proof.Proof.Gen.Kernel
import proofs.«114199_j39805756900005_1_alg».proof.Proof.Gen.Kernel.Skeleton
import proofs.«114199_j39805756900005_1_alg».proof.Proof.Gen.Kernel.Launch
import proofs.«114199_j39805756900005_1_alg».proof.Proof.Gen.Kernel.Points
import proofs.«114199_j39805756900005_1_alg».proof.Proof.Gen.Kernel.Frame
import proofs.«114199_j39805756900005_1_alg».proof.Proof.Gen.KernelIdeal
import proofs.«114199_j39805756900005_1_alg».proof.Proof.Gen.KernelIdeal.Skeleton
import proofs.«114199_j39805756900005_1_alg».proof.Proof.Gen.KernelIdeal.Launch
import proofs.«114199_j39805756900005_1_alg».proof.Proof.Gen.KernelIdeal.Points
import proofs.«114199_j39805756900005_1_alg».proof.Proof.Gen.KernelIdeal.Frame
import proofs.«114199_j39805756900005_1_alg».proof.Proof.Gen.ReferenceIdeal
import proofs.«114199_j39805756900005_1_alg».proof.Proof.Gen.Pre_finite_inputs
import proofs.«114199_j39805756900005_1_alg».proof.Proof.Result
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Result.frame_k, Cert.Result.frame_ki, Cert.Result.frame_ri, trivial, Cert.Result.algebraic⟩

end Cert.Proof

end
